-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x2500000 : Shape := ⟨2, ![2, 2500000]⟩
abbrev S32x16 : Shape := ⟨2, ![32, 16]⟩
abbrev S16 : Shape := ⟨1, ![16]⟩
abbrev S16x32 : Shape := ⟨2, ![16, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S16x32 .f32) (main_arg9 : FVec F S32 .f32) (main_v33 : IVec S_ 1) : IVec S_ 1 :=
  let main_v34 : FVec F S16x32 .f32 := Host.absf main_arg8
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S32 .f32) (main_arg6 : FVec F S32x16 .f32) (main_arg7 : FVec F S16 .f32) (main_arg8 : FVec F S16x32 .f32) (main_arg9 : FVec F S32 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x32 .f32) (main_arg1 : IVec S2x2500000 32) (main_arg2 : FVec F S32x16 .f32) (main_arg3 : FVec F S16 .f32) (main_arg4 : FVec F S16x32 .f32) (main_arg5 : FVec F S32 .f32) (main_arg6 : FVec F S32x16 .f32) (main_arg7 : FVec F S16 .f32) (main_arg8 : FVec F S16x32 .f32) (main_arg9 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x16 .f32 := Host.absf main_arg2
  let main_cst_0 : FVec F S_ .f32 := constant S_ .f32 0x7F800000#32
  let main_v5 : FVec F S32x16 .f32 := broadcastInDim S32x16 ![] bcast_S_S32x16 main_cst_0
  let main_v6 : IVec S32x16 1 := cmpf .olt main_v4 main_v5
  let main_c_1 : IVec S_ 1 := constantI S_ 1 1#1
  let main_v7 : IVec S_ 1 := (fun x v => Host.reduce IntOp.andi x v reducesTo_S32x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_arg6 main_arg7 main_arg8 main_arg9 main_v13 main_v16
-- ==== Kernel.lean ====
abbrev S100000x32 : Shape := ⟨2, ![100000, 32]⟩
abbrev S2x2500000 : Shape := ⟨2, ![2, 2500000]⟩
abbrev S32x16 : Shape := ⟨2, ![32, 16]⟩
abbrev S16 : Shape := ⟨1, ![16]⟩
abbrev S16x32 : Shape := ⟨2, ![16, 32]⟩
abbrev S32 : Shape := ⟨1, ![32]⟩
abbrev S1x2500000 : Shape := ⟨2, ![1, 2500000]⟩
abbrev S2500000 : Shape := ⟨1, ![2500000]⟩
abbrev S_ : Shape := ⟨0, ![]⟩
abbrev S2500000x1 : Shape := ⟨2, ![2500000, 1]⟩
abbrev S2500000x32 : Shape := ⟨2, ![2500000, 32]⟩
abbrev S1x16 : Shape := ⟨2, ![1, 16]⟩
abbrev S1x32 : Shape := ⟨2, ![1, 32]⟩
abbrev S5000x32 : Shape := ⟨2, ![5000, 32]⟩
abbrev S5000x16 : Shape := ⟨2, ![5000, 16]⟩

abbrev nBuf : Space → Nat
  | .hbm => 46
  | .vmem => 20
  | .smem => 0
  | _ => 0

abbrev bufTy : (tb : Table) → Fin (tcTables nBuf tb) → BufTy
  | .hbm, ⟨0, _⟩ => ⟨S100000x32, .f32⟩
  | .hbm, ⟨1, _⟩ => ⟨S2x2500000, .i32⟩
  | .hbm, ⟨2, _⟩ => ⟨S32x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x32, .f32⟩
  | .hbm, ⟨9, _⟩ => ⟨S32, .f32⟩
  | .hbm, ⟨10, _⟩ => ⟨S1x2500000, .i32⟩
  | .hbm, ⟨11, _⟩ => ⟨S2500000, .i32⟩
  | .hbm, ⟨12, _⟩ => ⟨S1x2500000, .i32⟩
  | .hbm, ⟨13, _⟩ => ⟨S2500000, .i32⟩
  | .hbm, ⟨14, _⟩ => ⟨S_, .i32⟩
  | .hbm, ⟨15, _⟩ => ⟨S2500000, .i32⟩
  | .hbm, ⟨16, _⟩ => ⟨S2500000, .i1⟩
  | .hbm, ⟨17, _⟩ => ⟨S_, .i32⟩
  | .hbm, ⟨18, _⟩ => ⟨S2500000, .i32⟩
  | .hbm, ⟨19, _⟩ => ⟨S2500000, .i32⟩
  | .hbm, ⟨20, _⟩ => ⟨S2500000, .i32⟩
  | .hbm, ⟨21, _⟩ => ⟨S2500000x1, .i32⟩
  | .hbm, ⟨22, _⟩ => ⟨S2500000x32, .f32⟩
  | .hbm, ⟨23, _⟩ => ⟨S_, .f32⟩
  | .hbm, ⟨24, _⟩ => ⟨S100000x32, .f32⟩
  | .hbm, ⟨25, _⟩ => ⟨S2500000x1, .i32⟩
  | .hbm, ⟨26, _⟩ => ⟨S100000x32, .f32⟩
  | .hbm, ⟨27, _⟩ => ⟨S1x16, .f32⟩
  | .hbm, ⟨28, _⟩ => ⟨S1x32, .f32⟩
  | .hbm, ⟨29, _⟩ => ⟨S100000x32, .f32⟩
  | .hbm, ⟨30, _⟩ => ⟨S_, .i32⟩
  | .hbm, ⟨31, _⟩ => ⟨S2500000, .i32⟩
  | .hbm, ⟨32, _⟩ => ⟨S2500000, .i1⟩
  | .hbm, ⟨33, _⟩ => ⟨S_, .i32⟩
  | .hbm, ⟨34, _⟩ => ⟨S2500000, .i32⟩
  | .hbm, ⟨35, _⟩ => ⟨S2500000, .i32⟩
  | .hbm, ⟨36, _⟩ => ⟨S2500000, .i32⟩
  | .hbm, ⟨37, _⟩ => ⟨S2500000x1, .i32⟩
  | .hbm, ⟨38, _⟩ => ⟨S2500000x32, .f32⟩
  | .hbm, ⟨39, _⟩ => ⟨S_, .f32⟩
  | .hbm, ⟨40, _⟩ => ⟨S100000x32, .f32⟩
  | .hbm, ⟨41, _⟩ => ⟨S2500000x1, .i32⟩
  | .hbm, ⟨42, _⟩ => ⟨S100000x32, .f32⟩
  | .hbm, ⟨43, _⟩ => ⟨S1x16, .f32⟩
  | .hbm, ⟨44, _⟩ => ⟨S1x32, .f32⟩
  | .hbm, ⟨45, _⟩ => ⟨S100000x32, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x16, .f32⟩
  | .local _ .vmem, ⟨5, _⟩ => ⟨S1x16, .f32⟩
  | .local _ .vmem, ⟨6, _⟩ => ⟨S16x32, .f32⟩
  | .local _ .vmem, ⟨7, _⟩ => ⟨S1x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S32x16, .f32⟩
  | .local _ .vmem, ⟨15, _⟩ => ⟨S1x16, .f32⟩
  | .local _ .vmem, ⟨16, _⟩ => ⟨S16x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S2500000_S2500000x1_0 : S2500000.BroadcastsInDim S2500000x1 (![0] : Fin 1 → Fin S2500000x1.rank)
  bcast_S_S100000x32 : S_.BroadcastsInDim S100000x32 (![] : Fin 0 → Fin S100000x32.rank)
  shapeCasts_S16_S1x16 : S16.ShapeCasts S1x16
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S5000x32_S32x16_S5000x16_1_0_0_1_n_n_wf : DotDims.WF S5000x32 S32x16 S5000x16 [1] [0] [0] [1] [] []
  dot_S5000x16_S16x32_S5000x32_1_0_0_1_n_n_wf : DotDims.WF S5000x16 S16x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x16.size a ≤ S32x16.size a
  hwx0_2 : ∀ i : grid0.Coords, EltTy.bits .f32 = 32 ∨ (Rect.block (s := S32x16) S32x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x32.size a ≤ S16x32.size a
  hwx0_4 : ∀ i : grid0.Coords, EltTy.bits .f32 = 32 ∨ (Rect.block (s := S16x32) S16x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x32.size a ≤ S100000x32.size a
  hwx0_6 : ∀ i : grid0.Coords, EltTy.bits .f32 = 32 ∨ (Rect.block (s := S100000x32) S5000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x32.size a ≤ S16x32.size a
  hwx1_4 : ∀ i : grid1.Coords, EltTy.bits .f32 = 32 ∨ (Rect.block (s := S16x32) S16x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S100000x32.size a
  hwx1_6 : ∀ i : grid1.Coords, EltTy.bits .f32 = 32 ∨ (Rect.block (s := S100000x32) S5000x32.size (cc1_transform_6 i) (hinb1_6 i)).WholeWords (EltTy.packing .f32)

variable [Facts₀]

def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S16x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x2500000 : Shape := ⟨2, ![2, 2500000]⟩
abbrev S32x16 : Shape := ⟨2, ![32, 16]⟩
abbrev S16 : Shape := ⟨1, ![16]⟩
abbrev S16x32 : Shape := ⟨2, ![16, 32]⟩
abbrev S32 : Shape := ⟨1, ![32]⟩
abbrev S1x2500000 : Shape := ⟨2, ![1, 2500000]⟩
abbrev S2500000 : Shape := ⟨1, ![2500000]⟩
abbrev S_ : Shape := ⟨0, ![]⟩
abbrev S2500000x1 : Shape := ⟨2, ![2500000, 1]⟩
abbrev S2500000x32 : Shape := ⟨2, ![2500000, 32]⟩
abbrev S100000x16 : Shape := ⟨2, ![100000, 16]⟩
abbrev S1x16 : Shape := ⟨2, ![1, 16]⟩
abbrev S1x32 : Shape := ⟨2, ![1, 32]⟩

abbrev nBuf : Space → Nat
  | .hbm => 67
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x2500000, .i32⟩
  | .hbm, ⟨2, _⟩ => ⟨S32x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x32, .f32⟩
  | .hbm, ⟨9, _⟩ => ⟨S32, .f32⟩
  | .hbm, ⟨10, _⟩ => ⟨S1x2500000, .i32⟩
  | .hbm, ⟨11, _⟩ => ⟨S2500000, .i32⟩
  | .hbm, ⟨12, _⟩ => ⟨S1x2500000, .i32⟩
  | .hbm, ⟨13, _⟩ => ⟨S2500000, .i32⟩
  | .hbm, ⟨14, _⟩ => ⟨S_, .i32⟩
  | .hbm, ⟨15, _⟩ => ⟨S2500000, .i32⟩
  | .hbm, ⟨16, _⟩ => ⟨S2500000, .i1⟩
  | .hbm, ⟨17, _⟩ => ⟨S_, .i32⟩
  | .hbm, ⟨18, _⟩ => ⟨S2500000, .i32⟩
  | .hbm, ⟨19, _⟩ => ⟨S2500000, .i32⟩
  | .hbm, ⟨20, _⟩ => ⟨S2500000, .i32⟩
  | .hbm, ⟨21, _⟩ => ⟨S2500000x1, .i32⟩
  | .hbm, ⟨22, _⟩ => ⟨S2500000x32, .f32⟩
  | .hbm, ⟨23, _⟩ => ⟨S_, .f32⟩
  | .hbm, ⟨24, _⟩ => ⟨S100000x32, .f32⟩
  | .hbm, ⟨25, _⟩ => ⟨S2500000x1, .i32⟩
  | .hbm, ⟨26, _⟩ => ⟨S100000x32, .f32⟩
  | .hbm, ⟨27, _⟩ => ⟨S100000x32, .f32⟩
  | .hbm, ⟨28, _⟩ => ⟨S100000x16, .f32⟩
  | .hbm, ⟨29, _⟩ => ⟨S1x16, .f32⟩
  | .hbm, ⟨30, _⟩ => ⟨S100000x16, .f32⟩
  | .hbm, ⟨31, _⟩ => ⟨S100000x16, .f32⟩
  | .hbm, ⟨32, _⟩ => ⟨S_, .f32⟩
  | .hbm, ⟨33, _⟩ => ⟨S100000x16, .f32⟩
  | .hbm, ⟨34, _⟩ => ⟨S100000x16, .f32⟩
  | .hbm, ⟨35, _⟩ => ⟨S100000x32, .f32⟩
  | .hbm, ⟨36, _⟩ => ⟨S1x32, .f32⟩
  | .hbm, ⟨37, _⟩ => ⟨S100000x32, .f32⟩
  | .hbm, ⟨38, _⟩ => ⟨S100000x32, .f32⟩
  | .hbm, ⟨39, _⟩ => ⟨S_, .f32⟩
  | .hbm, ⟨40, _⟩ => ⟨S100000x32, .f32⟩
  | .hbm, ⟨41, _⟩ => ⟨S100000x32, .f32⟩
  | .hbm, ⟨42, _⟩ => ⟨S_, .i32⟩
  | .hbm, ⟨43, _⟩ => ⟨S2500000, .i32⟩
  | .hbm, ⟨44, _⟩ => ⟨S2500000, .i1⟩
  | .hbm, ⟨45, _⟩ => ⟨S_, .i32⟩
  | .hbm, ⟨46, _⟩ => ⟨S2500000, .i32⟩
  | .hbm, ⟨47, _⟩ => ⟨S2500000, .i32⟩
  | .hbm, ⟨48, _⟩ => ⟨S2500000, .i32⟩
  | .hbm, ⟨49, _⟩ => ⟨S2500000x1, .i32⟩
  | .hbm, ⟨50, _⟩ => ⟨S2500000x32, .f32⟩
  | .hbm, ⟨51, _⟩ => ⟨S_, .f32⟩
  | .hbm, ⟨52, _⟩ => ⟨S100000x32, .f32⟩
  | .hbm, ⟨53, _⟩ => ⟨S2500000x1, .i32⟩
  | .hbm, ⟨54, _⟩ => ⟨S100000x32, .f32⟩
  | .hbm, ⟨55, _⟩ => ⟨S100000x32, .f32⟩
  | .hbm, ⟨56, _⟩ => ⟨S100000x16, .f32⟩
  | .hbm, ⟨57, _⟩ => ⟨S1x16, .f32⟩
  | .hbm, ⟨58, _⟩ => ⟨S100000x16, .f32⟩
  | .hbm, ⟨59, _⟩ => ⟨S100000x16, .f32⟩
  | .hbm, ⟨60, _⟩ => ⟨S_, .f32⟩
  | .hbm, ⟨61, _⟩ => ⟨S100000x16, .f32⟩
  | .hbm, ⟨62, _⟩ => ⟨S100000x16, .f32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S2500000_S2500000x1_0 : S2500000.BroadcastsInDim S2500000x1 (![0] : Fin 1 → Fin S2500000x1.rank)
  bcast_S_S100000x32 : S_.BroadcastsInDim S100000x32 (![] : Fin 0 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S100000x32_S32x16_S100000x16_1_0_0_1_n_n_wf : DotDims.WF S100000x32 S32x16 S100000x16 [1] [0] [0] [1] [] []
  dot_S100000x16_S16x32_S100000x32_1_0_0_1_n_n_wf : DotDims.WF S100000x16 S16x32 S100000x32 [1] [0] [0] [1] [] []

variable [Facts₀]

def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf

class Facts : Prop extends Facts₀ where

variable [Facts]
-- ==== Proof.Mlp.lean ====
/-
  One row of a graph-isomorphism convolution's dense part, on the extended reals.

  A row `xr` of node features and the row `ar` of its neighbours' summed features are added; the sum goes through a
  linear layer into sixteen hidden units, each cut off below at zero, and a second linear layer brings the hidden
  row back to thirty-two outputs.  `conv1` applies this to every row of an array and cuts the result off at zero
  once more (the activation between the two convolutions); `conv2` applies it without that last cut.  Nothing here
  names a program: the biases are functions of the unit's number, so that a bias kept as a vector and one kept as
  a one-row matrix are read the same way.
-/
import Idealize.ShloMosaic.PureOps.Ideal.Laws
import Idealize.ShloMosaic.Lib.ValueIdx

noncomputable section

namespace Cert.Gin

open Idealize.ShloMosaic Idealize.ShloMosaic.ValueIdx

/-- Hidden unit `k` of a row: `max (∑ l, (xr l + ar l) · Wa (l, k) + ba k) 0`, the zero kept as its word. -/
def hidden (xr ar : Fin 32 → EReal) (Wa : (⟨2, ![32, 16]⟩ : Shape).Idx → EReal) (ba : Fin 16 → EReal) (k : Fin 16) : EReal :=
  max ((∑ l : Fin 32, (xr l + ar l) * Wa (ix2 l k)) + ba k) (Ideal.ofBits .f32 0x00000000#32)

/-- Output `q` of a row: `∑ k, hidden k · Wb (k, q) + bb q`. -/
def mlpRow (xr ar : Fin 32 → EReal) (Wa : (⟨2, ![32, 16]⟩ : Shape).Idx → EReal) (ba : Fin 16 → EReal)
    (Wb : (⟨2, ![16, 32]⟩ : Shape).Idx → EReal) (bb : Fin 32 → EReal) (q : Fin 32) : EReal :=
  (∑ k : Fin 16, hidden xr ar Wa ba k * Wb (ix2 k q)) + bb q

/-- The first convolution's array: entry `(i, q)` is output `q` of row `i` of `X` and `A`, cut off below at zero. -/
def conv1 {M : ℕ} (X A : (⟨2, ![M, 32]⟩ : Shape).Idx → EReal) (Wa : (⟨2, ![32, 16]⟩ : Shape).Idx → EReal) (ba : Fin 16 → EReal)
    (Wb : (⟨2, ![16, 32]⟩ : Shape).Idx → EReal) (bb : Fin 32 → EReal) : (⟨2, ![M, 32]⟩ : Shape).Idx → EReal :=
  fun j => max (mlpRow (fun l => X (ix2 (j 0) l)) (fun l => A (ix2 (j 0) l)) Wa ba Wb bb (j 1)) (Ideal.ofBits .f32 0x00000000#32)

/-- The second convolution's array: entry `(i, q)` is output `q` of row `i` of `X` and `A`. -/
def conv2 {M : ℕ} (X A : (⟨2, ![M, 32]⟩ : Shape).Idx → EReal) (Wa : (⟨2, ![32, 16]⟩ : Shape).Idx → EReal) (ba : Fin 16 → EReal)
    (Wb : (⟨2, ![16, 32]⟩ : Shape).Idx → EReal) (bb : Fin 32 → EReal) : (⟨2, ![M, 32]⟩ : Shape).Idx → EReal :=
  fun j => mlpRow (fun l => X (ix2 (j 0) l)) (fun l => A (ix2 (j 0) l)) Wa ba Wb bb (j 1)

end Cert.Gin

end
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.Block.lean ====
/-
  The dense part of a convolution, as a kernel body computes it on a block of `M` rows, read at an entry.

  The body adds the two blocks, multiplies by the first weight matrix into a zero accumulator, adds the first bias
  (a one-row matrix broadcast down the rows), cuts off at zero, multiplies by the second weight matrix into a zero
  accumulator and adds the second bias.  The changes of float format on the way are the identity on the extended
  reals, and each product into zeros is a plain sum over the contracted axis, so entry `(p, q)` of the result is
  `mlpRow` of row `p` of the two blocks.
-/
import proofs.«158033_j37426345017678_1_alg».proof.Proof.Mlp
import proofs.«158033_j37426345017678_1_alg».proof.Proof.LibPlainMatmul
import Idealize.ShloMosaic.Lib.Pipeline.Value

noncomputable section

namespace Cert.Gin

open Idealize.ShloMosaic Idealize.ShloMosaic.ValueIdx

/-- A one-row matrix broadcast down `M` rows reads its column everywhere. -/
theorem bcastRow_apply {M N : ℕ} (x : (⟨2, ![1, N]⟩ : Shape).Idx → EReal) (h : (⟨2, ![1, N]⟩ : Shape).Broadcasts ⟨2, ![M, N]⟩)
    (p : Fin M) (k : Fin N) : broadcastTo ⟨2, ![M, N]⟩ x h (ix2 p k) = x (ix2 0 k) := by
  refine broadcastTo_apply x h (ix2 p k) (ix2 0 k) fun a => ?_
  match a with
  | ⟨0, _⟩ => rfl
  | ⟨1, _⟩ =>
    show k.val = if N = 1 then 0 else k.val
    split_ifs with h
    · have := k.isLt; omega
    · rfl

/-- The body's result on a block, before any last cut, at entry `(p, q)`. -/
theorem block_apply {M : ℕ} (x0 x1 : FVec Ideal ⟨2, ![M, 32]⟩ .f32) (x2 : FVec Ideal ⟨2, ![32, 16]⟩ .f32)
    (x3 : FVec Ideal ⟨2, ![1, 16]⟩ .f32) (x4 : FVec Ideal ⟨2, ![16, 32]⟩ .f32) (x5 : FVec Ideal ⟨2, ![1, 32]⟩ .f32)
    (hb3 : (⟨2, ![1, 16]⟩ : Shape).Broadcasts ⟨2, ![M, 16]⟩) (hb5 : (⟨2, ![1, 32]⟩ : Shape).Broadcasts ⟨2, ![M, 32]⟩)
    (hlt : FTy.bf16.bits < FTy.f32.bits) (p : Fin M) (q : Fin 32) :
    addf (matmul (DotDims.plain M 16 32) none
        (truncf .bf16 (maximumf (addf (matmul (DotDims.plain M 32 16) none (truncf .bf16 (addf x0 x1) hlt) (truncf .bf16 x2 hlt)
              (constant ⟨2, ![M, 16]⟩ .f32 0x00000000#32)) (broadcastTo ⟨2, ![M, 16]⟩ x3 hb3))
            (broadcast ⟨2, ![M, 16]⟩ (Scalar.ofBits .f32 0x00000000#32))) hlt)
        (truncf .bf16 x4 hlt) (constant ⟨2, ![M, 32]⟩ .f32 0x00000000#32))
      (broadcastTo ⟨2, ![M, 32]⟩ x5 hb5) (ix2 p q)
    = mlpRow (fun l => x0 (ix2 p l)) (fun l => x1 (ix2 p l)) x2 (fun k => x3 (ix2 0 k)) x4 (fun q => x5 (ix2 0 q)) q := by
  rw [addf_apply, Cert.PlainMatmul.matmul_plain_zero_apply, bcastRow_apply]
  unfold mlpRow hidden
  refine congrArg (· + x5 (ix2 0 q)) (Finset.sum_congr rfl fun k _ => ?_)
  rw [truncf_apply, truncf_apply, maximumf_apply, addf_apply, Cert.PlainMatmul.matmul_plain_zero_apply, bcastRow_apply, broadcast_apply]
  rfl

end Cert.Gin

end
-- ==== Proof.KPay.lean ====
/-
  What each kernel body stores, read at an entry of its block of 5000 rows.

  Both bodies compute the dense part of a convolution on the block (`Cert.Gin.block_apply`); the first then cuts the
  result off at zero, the second stores it as it is.  The two matrix products carry the dimension numbers of a
  plain product, rows by contraction times contraction by columns.
-/
import proofs.«158033_j37426345017678_1_alg».proof.Proof.Gen.KernelIdeal.Skeleton
import proofs.«158033_j37426345017678_1_alg».proof.Proof.Block

noncomputable section

namespace Cert.KernelIdeal.Pay

open Idealize.ShloMosaic Idealize.ShloMosaic.ValueIdx Cert.KernelIdeal Cert.KernelIdeal.Gen

/-- The first product's dimension numbers are the plain ones at 5000 × 32 by 32 × 16. -/
theorem dotA_plain : dot_S5000x32_S32x16_S5000x16_1_0_0_1_n_n = DotDims.plain 5000 32 16 := rfl
/-- The second product's dimension numbers are the plain ones at 5000 × 16 by 16 × 32. -/
theorem dotB_plain : dot_S5000x16_S16x32_S5000x32_1_0_0_1_n_n = DotDims.plain 5000 16 32 := rfl

/-- The first kernel's stored value at `(p, q)`: the row's output cut off below at zero. -/
theorem pay0_apply (x0 x1 : Vec Ideal S5000x32 .f32) (x2 : Vec Ideal S32x16 .f32) (x3 : Vec Ideal S1x16 .f32)
    (x4 : Vec Ideal S16x32 .f32) (x5 : Vec Ideal S1x32 .f32) (p : Fin 5000) (q : Fin 32) :
    k0_pay1 (F := Ideal) x0 x1 x2 x3 x4 x5 (ix2 p q)
      = max (Cert.Gin.mlpRow (fun l => x0 (ix2 p l)) (fun l => x1 (ix2 p l)) x2 (fun k => x3 (ix2 0 k)) x4 (fun r => x5 (ix2 0 r)) q)
          (Ideal.ofBits .f32 0x00000000#32) := by
  unfold k0_pay1
  simp only [shapeCast_self, dotA_plain, dotB_plain]
  exact congrArg (max · (Ideal.ofBits .f32 0x00000000#32))
    (Cert.Gin.block_apply x0 x1 x2 x3 x4 x5 broadcasts_S1x16_S5000x16 broadcasts_S1x32_S5000x32 bitsLt_bf16_f32 p q)

/-- The second kernel's stored value at `(p, q)`: the row's output. -/
theorem pay1_apply (x0 x1 : Vec Ideal S5000x32 .f32) (x2 : Vec Ideal S32x16 .f32) (x3 : Vec Ideal S1x16 .f32)
    (x4 : Vec Ideal S16x32 .f32) (x5 : Vec Ideal S1x32 .f32) (p : Fin 5000) (q : Fin 32) :
    k1_pay1 (F := Ideal) x0 x1 x2 x3 x4 x5 (ix2 p q)
      = Cert.Gin.mlpRow (fun l => x0 (ix2 p l)) (fun l => x1 (ix2 p l)) x2 (fun k => x3 (ix2 0 k)) x4 (fun r => x5 (ix2 0 r)) q := by
  unfold k1_pay1
  simp only [shapeCast_self, dotA_plain, dotB_plain]
  exact Cert.Gin.block_apply x0 x1 x2 x3 x4 x5 broadcasts_S1x16_S5000x16 broadcasts_S1x32_S5000x32 bitsLt_bf16_f32 p q

end Cert.KernelIdeal.Pay

end
-- ==== Proof.Region0.lean ====
/-
  What the first kernel region leaves in its output array, as one function of the arrays it finds at entry.

  The grid has 20 points; point `t` reads rows `5000·t … 5000·t + 4999` of the feature array and of the
  aggregated array, the two weight matrices and the two one-row biases whole, and writes the same rows of the
  output.  A stored row depends only on the same row of the two inputs, so every point's block is the restriction
  of ONE array, `Cert.Gin.conv1` of the entry arrays, and the twenty blocks tile the output.
-/
import proofs.«158033_j37426345017678_1_alg».proof.Proof.Gen.KernelIdeal.Frame
import proofs.«158033_j37426345017678_1_alg».proof.Proof.KPay
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The region's six input arrays as it finds them, each at its literal type. -/
abbrev aX (c : Dev nD) : Vec Ideal S100000x32 .f32 := V c main_arg0
abbrev aA (c : Dev nD) : Vec Ideal S100000x32 .f32 := V c main_v13
abbrev aWa (c : Dev nD) : Vec Ideal S32x16 .f32 := V c main_arg2
abbrev aBa (c : Dev nD) : Vec Ideal S1x16 .f32 := V c main_v14
abbrev aWb (c : Dev nD) : Vec Ideal S16x32 .f32 := V c main_arg4
abbrev aBb (c : Dev nD) : Vec Ideal S1x32 .f32 := V c main_v15

/-- The array the region leaves: the first convolution of the entry arrays, row by row. -/
def out (c : Dev nD) : Vec Ideal S100000x32 .f32 :=
  Cert.Gin.conv1 (aX V c) (aA V c) (aWa V c) (fun k => aBa V c (ix2 0 k)) (aWb V c) (fun r => aBb V c (ix2 0 r))

/-- The printed index maps over the grid: the three row-blocked windows sit at block row `t`, column block 0; the
    four whole-array windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `5000·t + p` of the array. -/
def row (t : Fin cfg0.N) (p : Fin 5000) : Fin 100000 :=
  ⟨t.val * 5000 + p.val, by have h := t.isLt; have hN : cfg0.N = 20 := N_0; have := p.isLt; omega⟩

theorem emb_X (t : Fin cfg0.N) (p : Fin 5000) (l : Fin 32) :
    ((cfg0.win 0).blk t).view.emb (ix2 p l) = ix2 (row t p) l := by
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 32 + 1 * l.val = l.val; omega

theorem emb_A (t : Fin cfg0.N) (p : Fin 5000) (l : Fin 32) :
    ((cfg0.win 1).blk t).view.emb (ix2 p l) = ix2 (row t p) l := by
  obtain ⟨-, -, e0, e1, -⟩ := idx_facts t
  funext a; apply Fin.ext
  match a with
  | ⟨0, _⟩ => show win0_1.index t (0 : Fin 2) * 5000 + 1 * p.val = t.val * 5000 + p.val; omega
  | ⟨1, _⟩ => show win0_1.index t (1 : Fin 2) * 32 + 1 * l.val = l.val; omega

theorem emb_out (t : Fin cfg0.N) (p : Fin 5000) (q : Fin 32) :
    ((cfg0.win 6).blk t).view.emb (ix2 p q) = ix2 (row t p) q := by
  obtain ⟨-, -, -, -, -, -, -, -, -, -, -, -, e0, e1⟩ := idx_facts t
  funext a; apply Fin.ext
  match a with
  | ⟨0, _⟩ => show win0_6.index t (0 : Fin 2) * 5000 + 1 * p.val = t.val * 5000 + p.val; omega
  | ⟨1, _⟩ => show win0_6.index t (1 : Fin 2) * 32 + 1 * q.val = q.val; omega

/-- The four windows over whole arrays read the array itself at every point. -/
theorem blk_Wa (c : Dev nD) (t : Fin cfg0.N) : iblk0 V c 2 t = aWa V c := by
  obtain ⟨-, -, -, -, e0, e1, -⟩ := idx_facts t
  funext y
  show V c main_arg2 (((cfg0.win 2).blk t).view.emb y) = V c main_arg2 y
  refine congrArg (V c main_arg2) (funext fun a => Fin.ext ?_)
  match a with
  | ⟨0, _⟩ => show win0_2.index t (0 : Fin 2) * 32 + 1 * (y 0).val = (y 0).val; omega
  | ⟨1, _⟩ => show win0_2.index t (1 : Fin 2) * 16 + 1 * (y 1).val = (y 1).val; omega

theorem blk_Ba (c : Dev nD) (t : Fin cfg0.N) : iblk0 V c 3 t = aBa V c := by
  obtain ⟨-, -, -, -, -, -, e0, e1, -⟩ := idx_facts t
  funext y
  show V c main_v14 (((cfg0.win 3).blk t).view.emb y) = V c main_v14 y
  refine congrArg (V c main_v14) (funext fun a => Fin.ext ?_)
  match a with
  | ⟨0, _⟩ => show win0_3.index t (0 : Fin 2) * 1 + 1 * (y 0).val = (y 0).val; omega
  | ⟨1, _⟩ => show win0_3.index t (1 : Fin 2) * 16 + 1 * (y 1).val = (y 1).val; omega

theorem blk_Wb (c : Dev nD) (t : Fin cfg0.N) : iblk0 V c 4 t = aWb V c := by
  obtain ⟨-, -, -, -, -, -, -, -, e0, e1, -⟩ := idx_facts t
  funext y
  show V c main_arg4 (((cfg0.win 4).blk t).view.emb y) = V c main_arg4 y
  refine congrArg (V c main_arg4) (funext fun a => Fin.ext ?_)
  match a with
  | ⟨0, _⟩ => show win0_4.index t (0 : Fin 2) * 16 + 1 * (y 0).val = (y 0).val; omega
  | ⟨1, _⟩ => show win0_4.index t (1 : Fin 2) * 32 + 1 * (y 1).val = (y 1).val; omega

theorem blk_Bb (c : Dev nD) (t : Fin cfg0.N) : iblk0 V c 5 t = aBb V c := by
  obtain ⟨-, -, -, -, -, -, -, -, -, -, e0, e1, -⟩ := idx_facts t
  funext y
  show V c main_v15 (((cfg0.win 5).blk t).view.emb y) = V c main_v15 y
  refine congrArg (V c main_v15) (funext fun a => Fin.ext ?_)
  match a with
  | ⟨0, _⟩ => show win0_5.index t (0 : Fin 2) * 1 + 1 * (y 0).val = (y 0).val; omega
  | ⟨1, _⟩ => show win0_5.index t (1 : Fin 2) * 32 + 1 * (y 1).val = (y 1).val; omega

/-- The two row-blocked inputs read, at row `p` of point `t`'s block, row `5000·t + p` of their arrays. -/
theorem blk_X (c : Dev nD) (t : Fin cfg0.N) (p : Fin 5000) (l : Fin 32) :
    iblk0 V c 0 t (ix2 p l) = aX V c (ix2 (row t p) l) := by
  show V c main_arg0 (((cfg0.win 0).blk t).view.emb (ix2 p l)) = V c main_arg0 (ix2 (row t p) l)
  rw [emb_X]

theorem blk_A (c : Dev nD) (t : Fin cfg0.N) (p : Fin 5000) (l : Fin 32) :
    iblk0 V c 1 t (ix2 p l) = aA V c (ix2 (row t p) l) := by
  show V c main_v13 (((cfg0.win 1).blk t).view.emb (ix2 p l)) = V c main_v13 (ix2 (row t p) l)
  rw [emb_A]

/-- WHAT POINT `t` WRITES BACK is block `t` of `out`. -/
theorem flushed (c : Dev nD) (t : Fin cfg0.N) :
    (dat0 V c).flushed 6 t = ((cfg0.win 6).blk t).view.read (Elt Ideal) (out V c) := by
  show (cfg0.win 6).cut (grid0.coords t) ((dat0 V c).after 6 t) = _
  rw [after0_6]
  unfold out0_6
  rw [View.canon_unit_zero hz]
  simp only [View.ld_unit_zero (S := S5000x32) hz, View.ld_unit_zero (S := S32x16) hz, View.ld_unit_zero (S := S1x16) hz,
    View.ld_unit_zero (S := S16x32) hz, View.ld_unit_zero (S := S1x32) hz]
  rw [blk_Wa, blk_Ba, blk_Wb, blk_Bb]
  funext j
  obtain ⟨p, q, rfl⟩ : ∃ (p : Fin 5000) (q : Fin 32), j = ix2 p q := ⟨j 0, j 1, eq_ix2 j⟩
  show k0_pay1 (iblk0 V c 0 t) (iblk0 V c 1 t) (aWa V c) (aBa V c) (aWb V c) (aBb V c) (ix2 p q)
    = out V c (((cfg0.win 6).blk t).view.emb (ix2 p q))
  rw [emb_out, Cert.KernelIdeal.Pay.pay0_apply]
  unfold out Cert.Gin.conv1
  simp only [blk_X, blk_A]

/-- An index of the output array is in point `t`'s block iff each coordinate is in the block's range on its axis. -/
theorem mem_blk (t : Fin cfg0.N) (i : S100000x32.Idx) :
    i ∈ ((cfg0.win 6).blk t).view.set ↔ ∀ a : Fin 2, win0_6.index t a * S5000x32.size a ≤ (i a).val ∧ (i a).val < win0_6.index t a * S5000x32.size a + S5000x32.size a := by
  show i ∈ ((View.whole main_v16).slice (win0_6.rect t)).set ↔ _
  rw [View.set_slice_whole, Rect.mem_set_unit]
  exact Iff.rfl

/-- Every index of the output array is in the block of the point its row falls in. -/
theorem cover (i : S100000x32.Idx) : ∃ t : Fin cfg0.N, (cfg0.win 6).flush t = true ∧ i ∈ ((cfg0.win 6).blk t).view.set := by
  have hi0 : (i 0).val < 100000 := (i 0).isLt
  have hi1 : (i 1).val < 32 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 32 ≤ (i 1).val ∧ (i 1).val < win0_6.index t (1 : Fin 2) * 32 + 32; omega

/-- THE OUTPUT ARRAY after the region: `out` of the entry arrays. -/
theorem final (c : Dev nD) : (dat0 V c).arrAt 6 cfg0.N = out V c :=
  (dat0 V c).arrAt_eq_of_cover 6 (out V c) (fun t _ => flushed V c t) cover

end Cert.KernelIdeal.Region0

end
-- ==== Proof.Region1.lean ====
/- What the second kernel region leaves in its output array, as one function of the arrays it finds at entry.

  The grid has 20 points; point `t` reads rows `5000·t … 5000·t + 4999` of the feature array and of the
  aggregated array, the two weight matrices and the two one-row biases whole, and writes the same rows of the
  output.  A stored row depends only on the same row of the two inputs, so every point's block is the restriction
  of ONE array, `Cert.Gin.conv2` of the entry arrays, and the twenty blocks tile the output.
-/
import proofs.«158033_j37426345017678_1_alg».proof.Proof.Gen.KernelIdeal.Frame
import proofs.«158033_j37426345017678_1_alg».proof.Proof.KPay
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The region's six input arrays as it finds them, each at its literal type. -/
abbrev aX (c : Dev nD) : Vec Ideal S100000x32 .f32 := V c main_v16
abbrev aA (c : Dev nD) : Vec Ideal S100000x32 .f32 := V c main_v26
abbrev aWa (c : Dev nD) : Vec Ideal S32x16 .f32 := V c main_arg6
abbrev aBa (c : Dev nD) : Vec Ideal S1x16 .f32 := V c main_v27
abbrev aWb (c : Dev nD) : Vec Ideal S16x32 .f32 := V c main_arg8
abbrev aBb (c : Dev nD) : Vec Ideal S1x32 .f32 := V c main_v28

/-- The array the region leaves: the second convolution of the entry arrays, row by row. -/
def out (c : Dev nD) : Vec Ideal S100000x32 .f32 :=
  Cert.Gin.conv2 (aX V c) (aA V c) (aWa V c) (fun k => aBa V c (ix2 0 k)) (aWb V c) (fun r => aBb V c (ix2 0 r))

/-- The printed index maps over the grid: the three row-blocked windows sit at block row `t`, column block 0; the
    four whole-array windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of point `t`'s block is row `5000·t + p` of the array. -/
def row (t : Fin cfg1.N) (p : Fin 5000) : Fin 100000 :=
  ⟨t.val * 5000 + p.val, by have h := t.isLt; have hN : cfg1.N = 20 := N_1; have := p.isLt; omega⟩

theorem emb_X (t : Fin cfg1.N) (p : Fin 5000) (l : Fin 32) :
    ((cfg1.win 0).blk t).view.emb (ix2 p l) = ix2 (row t p) l := by
  obtain ⟨e0, e1, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 32 + 1 * l.val = l.val; omega

theorem emb_A (t : Fin cfg1.N) (p : Fin 5000) (l : Fin 32) :
    ((cfg1.win 1).blk t).view.emb (ix2 p l) = ix2 (row t p) l := by
  obtain ⟨-, -, e0, e1, -⟩ := idx_facts t
  funext a; apply Fin.ext
  match a with
  | ⟨0, _⟩ => show win1_1.index t (0 : Fin 2) * 5000 + 1 * p.val = t.val * 5000 + p.val; omega
  | ⟨1, _⟩ => show win1_1.index t (1 : Fin 2) * 32 + 1 * l.val = l.val; omega

theorem emb_out (t : Fin cfg1.N) (p : Fin 5000) (q : Fin 32) :
    ((cfg1.win 6).blk t).view.emb (ix2 p q) = ix2 (row t p) q := by
  obtain ⟨-, -, -, -, -, -, -, -, -, -, -, -, e0, e1⟩ := idx_facts t
  funext a; apply Fin.ext
  match a with
  | ⟨0, _⟩ => show win1_6.index t (0 : Fin 2) * 5000 + 1 * p.val = t.val * 5000 + p.val; omega
  | ⟨1, _⟩ => show win1_6.index t (1 : Fin 2) * 32 + 1 * q.val = q.val; omega

/-- The four windows over whole arrays read the array itself at every point. -/
theorem blk_Wa (c : Dev nD) (t : Fin cfg1.N) : iblk1 V c 2 t = aWa V c := by
  obtain ⟨-, -, -, -, e0, e1, -⟩ := idx_facts t
  funext y
  show V c main_arg6 (((cfg1.win 2).blk t).view.emb y) = V c main_arg6 y
  refine congrArg (V c main_arg6) (funext fun a => Fin.ext ?_)
  match a with
  | ⟨0, _⟩ => show win1_2.index t (0 : Fin 2) * 32 + 1 * (y 0).val = (y 0).val; omega
  | ⟨1, _⟩ => show win1_2.index t (1 : Fin 2) * 16 + 1 * (y 1).val = (y 1).val; omega

theorem blk_Ba (c : Dev nD) (t : Fin cfg1.N) : iblk1 V c 3 t = aBa V c := by
  obtain ⟨-, -, -, -, -, -, e0, e1, -⟩ := idx_facts t
  funext y
  show V c main_v27 (((cfg1.win 3).blk t).view.emb y) = V c main_v27 y
  refine congrArg (V c main_v27) (funext fun a => Fin.ext ?_)
  match a with
  | ⟨0, _⟩ => show win1_3.index t (0 : Fin 2) * 1 + 1 * (y 0).val = (y 0).val; omega
  | ⟨1, _⟩ => show win1_3.index t (1 : Fin 2) * 16 + 1 * (y 1).val = (y 1).val; omega

theorem blk_Wb (c : Dev nD) (t : Fin cfg1.N) : iblk1 V c 4 t = aWb V c := by
  obtain ⟨-, -, -, -, -, -, -, -, e0, e1, -⟩ := idx_facts t
  funext y
  show V c main_arg8 (((cfg1.win 4).blk t).view.emb y) = V c main_arg8 y
  refine congrArg (V c main_arg8) (funext fun a => Fin.ext ?_)
  match a with
  | ⟨0, _⟩ => show win1_4.index t (0 : Fin 2) * 16 + 1 * (y 0).val = (y 0).val; omega
  | ⟨1, _⟩ => show win1_4.index t (1 : Fin 2) * 32 + 1 * (y 1).val = (y 1).val; omega

theorem blk_Bb (c : Dev nD) (t : Fin cfg1.N) : iblk1 V c 5 t = aBb V c := by
  obtain ⟨-, -, -, -, -, -, -, -, -, -, e0, e1, -⟩ := idx_facts t
  funext y
  show V c main_v28 (((cfg1.win 5).blk t).view.emb y) = V c main_v28 y
  refine congrArg (V c main_v28) (funext fun a => Fin.ext ?_)
  match a with
  | ⟨0, _⟩ => show win1_5.index t (0 : Fin 2) * 1 + 1 * (y 0).val = (y 0).val; omega
  | ⟨1, _⟩ => show win1_5.index t (1 : Fin 2) * 32 + 1 * (y 1).val = (y 1).val; omega

/-- The two row-blocked inputs read, at row `p` of point `t`'s block, row `5000·t + p` of their arrays. -/
theorem blk_X (c : Dev nD) (t : Fin cfg1.N) (p : Fin 5000) (l : Fin 32) :
    iblk1 V c 0 t (ix2 p l) = aX V c (ix2 (row t p) l) := by
  show V c main_v16 (((cfg1.win 0).blk t).view.emb (ix2 p l)) = V c main_v16 (ix2 (row t p) l)
  rw [emb_X]

theorem blk_A (c : Dev nD) (t : Fin cfg1.N) (p : Fin 5000) (l : Fin 32) :
    iblk1 V c 1 t (ix2 p l) = aA V c (ix2 (row t p) l) := by
  show V c main_v26 (((cfg1.win 1).blk t).view.emb (ix2 p l)) = V c main_v26 (ix2 (row t p) l)
  rw [emb_A]

/-- WHAT POINT `t` WRITES BACK is block `t` of `out`. -/
theorem flushed (c : Dev nD) (t : Fin cfg1.N) :
    (dat1 V c).flushed 6 t = ((cfg1.win 6).blk t).view.read (Elt Ideal) (out V c) := by
  show (cfg1.win 6).cut (grid1.coords t) ((dat1 V c).after 6 t) = _
  rw [after1_6]
  unfold out1_6
  rw [View.canon_unit_zero hz]
  simp only [View.ld_unit_zero (S := S5000x32) hz, View.ld_unit_zero (S := S32x16) hz, View.ld_unit_zero (S := S1x16) hz,
    View.ld_unit_zero (S := S16x32) hz, View.ld_unit_zero (S := S1x32) hz]
  rw [blk_Wa, blk_Ba, blk_Wb, blk_Bb]
  funext j
  obtain ⟨p, q, rfl⟩ : ∃ (p : Fin 5000) (q : Fin 32), j = ix2 p q := ⟨j 0, j 1, eq_ix2 j⟩
  show k1_pay1 (iblk1 V c 0 t) (iblk1 V c 1 t) (aWa V c) (aBa V c) (aWb V c) (aBb V c) (ix2 p q)
    = out V c (((cfg1.win 6).blk t).view.emb (ix2 p q))
  rw [emb_out, Cert.KernelIdeal.Pay.pay1_apply]
  unfold out Cert.Gin.conv2
  simp only [blk_X, blk_A]

/-- An index of the output array is in point `t`'s block iff each coordinate is in the block's range on its axis. -/
theorem mem_blk (t : Fin cfg1.N) (i : S100000x32.Idx) :
    i ∈ ((cfg1.win 6).blk t).view.set ↔ ∀ a : Fin 2, win1_6.index t a * S5000x32.size a ≤ (i a).val ∧ (i a).val < win1_6.index t a * S5000x32.size a + S5000x32.size a := by
  show i ∈ ((View.whole main_v29).slice (win1_6.rect t)).set ↔ _
  rw [View.set_slice_whole, Rect.mem_set_unit]
  exact Iff.rfl

/-- Every index of the output array is in the block of the point its row falls in. -/
theorem cover (i : S100000x32.Idx) : ∃ t : Fin cfg1.N, (cfg1.win 6).flush t = true ∧ i ∈ ((cfg1.win 6).blk t).view.set := by
  have hi0 : (i 0).val < 100000 := (i 0).isLt
  have hi1 : (i 1).val < 32 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, -, -, -, -, -, -, -, -, e0, e1⟩ := idx_facts t
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 32 ≤ (i 1).val ∧ (i 1).val < win1_6.index t (1 : Fin 2) * 32 + 32; omega

/-- THE OUTPUT ARRAY after the region: `out` of the entry arrays. -/
theorem final (c : Dev nD) : (dat1 V c).arrAt 6 cfg1.N = out V c :=
  (dat1 V c).arrAt_eq_of_cover 6 (out V c) (fun t _ => flushed V c t) cover

end Cert.KernelIdeal.Region1

end
-- ==== Proof.KHost.lean ====
/-
  The arrays each kernel region finds at entry, as terms of the launch memory.

  Before each region the host gathers the rows of a feature array named by the edges' source nodes (a negative
  source counted from the end) and adds them into a zero array at the rows named by the edges' destination nodes:
  the aggregated array `agg`.  It also reshapes the two bias vectors to one-row matrices.  No host operation writes
  an argument of @main, and the first region writes only its own output, so at both regions' entries the weight
  matrices are the launch memory's, the biases its vectors reshaped, the first region's features the first
  argument, and the second region's features what the first region left in its output.
-/
import proofs.«158033_j37426345017678_1_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Host

open Idealize.ShloMosaic Idealize.ShloMosaic.TcCoe Idealize.ShloMosaic.ValueIdx Idealize.SL.Sem Idealize.ShloMosaic.StableHlo
open Cert.KernelIdeal Cert.KernelIdeal.Gen

/-- The edges' source nodes: row 0 of the edge array. -/
def src (E : (⟨S2x2500000, .i32⟩ : BufTy).Contents (Elt Ideal)) : (⟨S2500000, .i32⟩ : BufTy).Contents (Elt Ideal) :=
  shapeCast S2500000 (extractStridedSlice S1x2500000 ![0, 0] E slices_S2x2500000_S1x2500000_0_0) shapeCasts_S1x2500000_S2500000
/-- The edges' destination nodes: row 1 of the edge array. -/
def dst (E : (⟨S2x2500000, .i32⟩ : BufTy).Contents (Elt Ideal)) : (⟨S2500000, .i32⟩ : BufTy).Contents (Elt Ideal) :=
  shapeCast S2500000 (extractStridedSlice S1x2500000 ![1, 0] E slices_S2x2500000_S1x2500000_1_0) shapeCasts_S1x2500000_S2500000

/-- The aggregation: the rows of `x` at the sources (a negative source moved up by the number of nodes), added into
    zeros at the destinations. -/
def aggOf (s d : (⟨S2500000, .i32⟩ : BufTy).Contents (Elt Ideal)) (x : (⟨S100000x32, .f32⟩ : BufTy).Contents (Elt Ideal)) :
    (⟨S100000x32, .f32⟩ : BufTy).Contents (Elt Ideal) :=
  Host.scatterAdd (F := Ideal) scatter_S100000x32_S2500000x1_S2500000x32_1_0_0_1
    (broadcastInDim S100000x32 ![] bcast_S_S100000x32 (constant (F := Ideal) S_ .f32 0x00000000#32))
    (broadcastInDim S2500000x1 ![0] bcast_S2500000_S2500000x1_0 d)
    (Host.gather gather_S100000x32_S2500000x1_S2500000x32_1_0_n_n_0_1_132 x
      (broadcastInDim S2500000x1 ![0] bcast_S2500000_S2500000x1_0
        (select (cmpi .slt s (broadcastInDim S2500000 ![] bcast_S_S2500000 (constantI S_ 32 0#32)))
          (addi s (broadcastInDim S2500000 ![] bcast_S_S2500000 (constantI S_ 32 100000#32))) s)))

/-- The aggregation of `x` over the edge array `E`. -/
def agg (x : (⟨S100000x32, .f32⟩ : BufTy).Contents (Elt Ideal)) (E : (⟨S2x2500000, .i32⟩ : BufTy).Contents (Elt Ideal)) :
    (⟨S100000x32, .f32⟩ : BufTy).Contents (Elt Ideal) := aggOf (src E) (dst E) x

variable (m : (ℓ : Loc nD τ sig) → Buf (Elt Ideal) ℓ) (ρ : Dev nD → PrngReg) (c : Dev nD)

/-! ## Region 0's entry -/

theorem e0_x : V1 m ρ c main_arg0 = m ((c : Thread nD τ).loc main_arg0) := by
  show StableHlo.after hostOps0 (W0 m ρ c) (Proc.devRef .tc main_arg0) = _
  dsimp only [hostOps0]; after_results
theorem e0_agg : V1 m ρ c main_v13 = agg (m ((c : Thread nD τ).loc main_arg0)) (m ((c : Thread nD τ).loc main_arg1)) := by
  show StableHlo.after hostOps0 (W0 m ρ c) (Proc.devRef .tc main_v13) = _
  dsimp only [hostOps0]; after_results; rfl
theorem e0_wa : V1 m ρ c main_arg2 = m ((c : Thread nD τ).loc main_arg2) := by
  show StableHlo.after hostOps0 (W0 m ρ c) (Proc.devRef .tc main_arg2) = _
  dsimp only [hostOps0]; after_results
theorem e0_wb : V1 m ρ c main_arg4 = m ((c : Thread nD τ).loc main_arg4) := by
  show StableHlo.after hostOps0 (W0 m ρ c) (Proc.devRef .tc main_arg4) = _
  dsimp only [hostOps0]; after_results
theorem e0_ba : (V1 m ρ c main_v14 : S1x16.Idx → EReal) = shapeCast S1x16 (m ((c : Thread nD τ).loc main_arg3)) shapeCasts_S16_S1x16 := by
  show StableHlo.after hostOps0 (W0 m ρ c) (Proc.devRef .tc main_v14) = _
  dsimp only [hostOps0]; after_results; rfl
theorem e0_bb : (V1 m ρ c main_v15 : S1x32.Idx → EReal) = shapeCast S1x32 (m ((c : Thread nD τ).loc main_arg5)) shapeCasts_S32_S1x32 := by
  show StableHlo.after hostOps0 (W0 m ρ c) (Proc.devRef .tc main_v15) = _
  dsimp only [hostOps0]; after_results; rfl

/-- A vector reshaped to a one-row matrix reads, at column `k` of its row, the vector at `k`. -/
theorem row16 (b : S16.Idx → EReal) (k : Fin 16) : shapeCast S1x16 b shapeCasts_S16_S1x16 (ix2 0 k) = b (ix1 k) := by
  refine shapeCast_apply b shapeCasts_S16_S1x16 (ix2 0 k) (ix1 k) ?_
  rw [Shape.rowMajor_val_one, Shape.rowMajor_val_two]
  show k.val = 0 * 16 + k.val
  omega
theorem row32 (b : S32.Idx → EReal) (k : Fin 32) : shapeCast S1x32 b shapeCasts_S32_S1x32 (ix2 0 k) = b (ix1 k) := by
  refine shapeCast_apply b shapeCasts_S32_S1x32 (ix2 0 k) (ix1 k) ?_
  rw [Shape.rowMajor_val_one, Shape.rowMajor_val_two]
  show k.val = 0 * 32 + k.val
  omega

/-! ## Region 1's entry -/

/-- What the first region's exit holds of the launch memory: an argument it does not write, or an edge row. -/
theorem x2_arg1 : W2 m ρ c (Proc.devRef .tc main_v1) = src (m ((c : Thread nD τ).loc main_arg1)) := by
  rw [W2_of_ne m ρ c main_v1 (by decide)]
  show StableHlo.after hostOps0 (W0 m ρ c) (Proc.devRef .tc main_v1) = _
  dsimp only [hostOps0]; after_results; rfl
theorem x2_arg3 : W2 m ρ c (Proc.devRef .tc main_v3) = dst (m ((c : Thread nD τ).loc main_arg1)) := by
  rw [W2_of_ne m ρ c main_v3 (by decide)]
  show StableHlo.after hostOps0 (W0 m ρ c) (Proc.devRef .tc main_v3) = _
  dsimp only [hostOps0]; after_results; rfl
theorem x2_arg6 : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  dsimp only [hostOps0]; after_results
theorem x2_arg7 : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  dsimp only [hostOps0]; after_results
theorem x2_arg8 : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  dsimp only [hostOps0]; after_results
theorem x2_arg9 : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  dsimp only [hostOps0]; after_results

/-- The second region's features are what the first region left in its output. -/
theorem e1_x : V3 m ρ c main_v16 = (dat0 (V1 m ρ) c).arrAt 6 cfg0.N := by
  show StableHlo.after hostOps1 (W2 m ρ c) (Proc.devRef .tc main_v16) = _
  dsimp only [hostOps1]; after_results
  exact W2_arr m ρ c 6
/-- The second stretch's aggregation, from ANY contents `w` at its start: of the two edge rows and the feature array
    `w` holds. -/
theorem stretch1_agg (w : Valuation τ sig (Elt Ideal)) :
    StableHlo.after hostOps1 w (Proc.devRef .tc main_v26)
      = aggOf (w (Proc.devRef .tc main_v1)) (w (Proc.devRef .tc main_v3)) (w (Proc.devRef .tc main_v16)) := by
  dsimp only [hostOps1]; after_results; rfl
/-- Its aggregated array is the aggregation of those features over the same edges. -/
theorem e1_agg : V3 m ρ c main_v26 = agg ((dat0 (V1 m ρ) c).arrAt 6 cfg0.N) (m ((c : Thread nD τ).loc main_arg1)) := by
  show StableHlo.after hostOps1 (W2 m ρ c) (Proc.devRef .tc main_v26) = _
  rw [stretch1_agg, x2_arg1, x2_arg3, show W2 m ρ c (Proc.devRef .tc main_v16) = (dat0 (V1 m ρ) c).arrAt 6 cfg0.N from W2_arr m ρ c 6]
  rfl
theorem e1_wa : V3 m ρ c main_arg6 = m ((c : Thread nD τ).loc main_arg6) := by
  show StableHlo.after hostOps1 (W2 m ρ c) (Proc.devRef .tc main_arg6) = _
  dsimp only [hostOps1]; after_results
  exact x2_arg6 m ρ c
theorem e1_wb : V3 m ρ c main_arg8 = m ((c : Thread nD τ).loc main_arg8) := by
  show StableHlo.after hostOps1 (W2 m ρ c) (Proc.devRef .tc main_arg8) = _
  dsimp only [hostOps1]; after_results
  exact x2_arg8 m ρ c
theorem e1_ba : (V3 m ρ c main_v27 : S1x16.Idx → EReal) = shapeCast S1x16 (m ((c : Thread nD τ).loc main_arg7)) shapeCasts_S16_S1x16 := by
  show StableHlo.after hostOps1 (W2 m ρ c) (Proc.devRef .tc main_v27) = _
  dsimp only [hostOps1]; after_results
  rw [x2_arg7]
  rfl
theorem e1_bb : (V3 m ρ c main_v28 : S1x32.Idx → EReal) = shapeCast S1x32 (m ((c : Thread nD τ).loc main_arg9)) shapeCasts_S32_S1x32 := by
  show StableHlo.after hostOps1 (W2 m ρ c) (Proc.devRef .tc main_v28) = _
  dsimp only [hostOps1]; after_results
  rw [x2_arg9]
  rfl

end Cert.KernelIdeal.Host

end
-- ==== Proof.KValue.lean ====
/-
  The kernel program's result array as one term of the launch memory.

  The first region leaves the first convolution of the launch memory's features, their aggregation over the edges,
  and the first two weight matrices and biases: `mid`.  The second region finds `mid` as its features, the
  aggregation of `mid` over the same edges as its aggregated array, and the last two weight matrices and biases, and
  leaves their second convolution: `result`, which is what the result array holds when @main returns.
-/
import proofs.«158033_j37426345017678_1_alg».proof.Proof.Region0
import proofs.«158033_j37426345017678_1_alg».proof.Proof.Region1
import proofs.«158033_j37426345017678_1_alg».proof.Proof.KHost

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The features between the two convolutions: the first convolution of the launch memory. -/
def mid : S100000x32.Idx → EReal :=
  Cert.Gin.conv1 (m ((c : Thread nD τ).loc main_arg0))
    (Host.agg (m ((c : Thread nD τ).loc main_arg0)) (m ((c : Thread nD τ).loc main_arg1)))
    (m ((c : Thread nD τ).loc main_arg2)) (fun k => m ((c : Thread nD τ).loc main_arg3) (ix1 k))
    (m ((c : Thread nD τ).loc main_arg4)) (fun r => m ((c : Thread nD τ).loc main_arg5) (ix1 r))

/-- The result: the second convolution of `mid` and its aggregation over the same edges. -/
def result : S100000x32.Idx → EReal :=
  Cert.Gin.conv2 (mid m c) (Host.agg (mid m c) (m ((c : Thread nD τ).loc main_arg1)))
    (m ((c : Thread nD τ).loc main_arg6)) (fun k => m ((c : Thread nD τ).loc main_arg7) (ix1 k))
    (m ((c : Thread nD τ).loc main_arg8)) (fun r => m ((c : Thread nD τ).loc main_arg9) (ix1 r))

/-- What the first region leaves in its output array is `mid`. -/
theorem first : (dat0 (V1 m ρ) c).arrAt 6 cfg0.N = mid m c := by
  rw [Region0.final]
  have hba : (fun k : Fin 16 => Region0.aBa (V1 m ρ) c (ix2 0 k)) = fun k => m ((c : Thread nD τ).loc main_arg3) (ix1 k) :=
    funext fun k => (congrFun (Host.e0_ba m ρ c) (ix2 0 k)).trans (Host.row16 _ k)
  have hbb : (fun r : Fin 32 => Region0.aBb (V1 m ρ) c (ix2 0 r)) = fun r => m ((c : Thread nD τ).loc main_arg5) (ix1 r) :=
    funext fun r => (congrFun (Host.e0_bb m ρ c) (ix2 0 r)).trans (Host.row32 _ r)
  unfold Region0.out mid
  rw [hba, hbb, show Region0.aX (V1 m ρ) c = _ from Host.e0_x m ρ c, show Region0.aA (V1 m ρ) c = _ from Host.e0_agg m ρ c,
    show Region0.aWa (V1 m ρ) c = _ from Host.e0_wa m ρ c, show Region0.aWb (V1 m ρ) c = _ from Host.e0_wb m ρ c]

/-- What the result array holds at the last boundary of @main is `result`. -/
theorem value : W4 m ρ c (Proc.devRef .tc main_v29) = result m c := by
  rw [show W4 m ρ c (Proc.devRef .tc main_v29) = (dat1 (V3 m ρ) c).arrAt 6 cfg1.N from W4_arr m ρ c 6, Region1.final]
  have hba : (fun k : Fin 16 => Region1.aBa (V3 m ρ) c (ix2 0 k)) = fun k => m ((c : Thread nD τ).loc main_arg7) (ix1 k) :=
    funext fun k => (congrFun (Host.e1_ba m ρ c) (ix2 0 k)).trans (Host.row16 _ k)
  have hbb : (fun r : Fin 32 => Region1.aBb (V3 m ρ) c (ix2 0 r)) = fun r => m ((c : Thread nD τ).loc main_arg9) (ix1 r) :=
    funext fun r => (congrFun (Host.e1_bb m ρ c) (ix2 0 r)).trans (Host.row32 _ r)
  have hx : Region1.aX (V3 m ρ) c = mid m c := (Host.e1_x m ρ c).trans (first m ρ c)
  have ha : Region1.aA (V3 m ρ) c = Host.agg (mid m c) (m ((c : Thread nD τ).loc main_arg1)) :=
    (Host.e1_agg m ρ c).trans (congrArg (fun x => Host.agg x (m ((c : Thread nD τ).loc main_arg1))) (first m ρ c))
  unfold Region1.out result
  rw [hba, hbb, hx, ha, show Region1.aWa (V3 m ρ) c = _ from Host.e1_wa m ρ c, show Region1.aWb (V3 m ρ) c = _ from Host.e1_wb m ρ c]

end Cert.KernelIdeal.Whole

end
-- ==== Proof.RefStages.lean ====
/-
  The reference's two convolutions, each as the row function of its inputs.

  The reference adds the aggregated array to the features, multiplies by the first weight matrix, adds the bias
  broadcast down the rows, cuts off at zero, multiplies by the second weight matrix and adds the second bias; after
  the first convolution it cuts off at zero once more.  Read at an entry `(p, q)`, each matrix product is a sum over
  the contracted axis and each broadcast bias is the bias at its column, so the result is `Cert.Gin.mlpRow` of row
  `p`: `conv1` for the first convolution, `conv2` for the second, whose feature array is the first's result and
  whose aggregated array is the second scatter's.  The two aggregations stay the opaque host terms they are.
-/
import proofs.«158033_j37426345017678_1_alg».proof.Defs
import proofs.«158033_j37426345017678_1_alg».proof.Proof.Gen.ReferenceIdeal
import proofs.«158033_j37426345017678_1_alg».proof.Proof.Gen.ReferenceIdeal.Run
import proofs.«158033_j37426345017678_1_alg».proof.Proof.Gen.ReferenceIdeal.Read
import proofs.«158033_j37426345017678_1_alg».proof.Proof.Mlp

noncomputable section

namespace Cert.ReferenceIdeal.Stages

open Idealize.ShloMosaic Idealize.ShloMosaic.ValueIdx Cert.ReferenceIdeal Cert.ReferenceIdeal.Read

/-- The first product's operand indices at output `(p, k)` and contraction coordinate `l`. -/
theorem lidx15 (p : Fin 100000) (k : Fin 16) (l : Fin 32) : lidx_main_v15 (ix2 p k) l = ix2 p l :=
  funext fun a => Fin.ext (by match a with | ⟨0, _⟩ => rfl | ⟨1, _⟩ => rfl)
theorem ridx15 (p : Fin 100000) (k : Fin 16) (l : Fin 32) : ridx_main_v15 (ix2 p k) l = ix2 l k :=
  funext fun a => Fin.ext (by match a with | ⟨0, _⟩ => rfl | ⟨1, _⟩ => rfl)
/-- The second product's, at output `(p, q)` and contraction coordinate `k`. -/
theorem lidx21 (p : Fin 100000) (q : Fin 32) (k : Fin 16) : lidx_main_v21 (ix2 p q) k = ix2 p k :=
  funext fun a => Fin.ext (by match a with | ⟨0, _⟩ => rfl | ⟨1, _⟩ => rfl)
theorem ridx21 (p : Fin 100000) (q : Fin 32) (k : Fin 16) : ridx_main_v21 (ix2 p q) k = ix2 k q :=
  funext fun a => Fin.ext (by match a with | ⟨0, _⟩ => rfl | ⟨1, _⟩ => rfl)
/-- The broadcast biases read the bias at the entry's column. -/
theorem bias17 (p : Fin 100000) (k : Fin 16) : idx_main_v16 (idx_main_v17 (ix2 p k)) = ix1 k :=
  funext fun a => Fin.ext (by match a with | ⟨0, _⟩ => rfl)
theorem bias23 (p : Fin 100000) (q : Fin 32) : idx_main_v22 (idx_main_v23 (ix2 p q)) = ix1 q :=
  funext fun a => Fin.ext (by match a with | ⟨0, _⟩ => rfl)

/-- THE FIRST CONVOLUTION: the reference's `%26` is `conv1` of the features and the first aggregation. -/
theorem conv1_eq (x0 : (⟨S100000x32, .f32⟩ : BufTy).Contents (Elt Ideal)) (x1 : (⟨S2x2500000, .i32⟩ : BufTy).Contents (Elt Ideal))
    (x2 : (⟨S32x16, .f32⟩ : BufTy).Contents (Elt Ideal)) (x3 : (⟨S16, .f32⟩ : BufTy).Contents (Elt Ideal))
    (x4 : (⟨S16x32, .f32⟩ : BufTy).Contents (Elt Ideal)) (x5 : (⟨S32, .f32⟩ : BufTy).Contents (Elt Ideal)) :
    val_main_v26 (F := Ideal) x0 x1 x2 x3 x4 x5
      = Cert.Gin.conv1 x0 (val_main_v13 (F := Ideal) x0 x1) x2 (fun k => x3 (ix1 k)) x4 (fun r => x5 (ix1 r)) := by
  funext i
  obtain ⟨p, q, rfl⟩ : ∃ (p : Fin 100000) (q : Fin 32), i = ix2 p q := ⟨i 0, i 1, eq_ix2 i⟩
  rw [val_main_v26_apply, val_main_v24_apply, val_main_v21_apply, val_main_v23_apply, val_main_v22_apply, bias23,
    val_main_v25_apply, val_main_cst_2_apply]
  unfold Cert.Gin.conv1 Cert.Gin.mlpRow Cert.Gin.hidden
  refine congrArg (fun s => max (s + x5 (ix1 q)) (Ideal.ofBits .f32 0x00000000#32)) (Finset.sum_congr rfl fun k _ => ?_)
  rw [lidx21, ridx21, val_main_v20_apply, val_main_v18_apply, val_main_v15_apply, val_main_v17_apply, val_main_v16_apply,
    bias17, val_main_v19_apply, val_main_cst_1_apply]
  refine congrArg (fun s => max (s + x3 (ix1 k)) (Ideal.ofBits .f32 0x00000000#32) * x4 (ix2 k q)) (Finset.sum_congr rfl fun l _ => ?_)
  rw [lidx15, ridx15, val_main_v14_apply]
  rfl

/-- The same index facts for the second convolution's two products and two biases. -/
theorem lidx38 (p : Fin 100000) (k : Fin 16) (l : Fin 32) : lidx_main_v38 (ix2 p k) l = ix2 p l :=
  funext fun a => Fin.ext (by match a with | ⟨0, _⟩ => rfl | ⟨1, _⟩ => rfl)
theorem ridx38 (p : Fin 100000) (k : Fin 16) (l : Fin 32) : ridx_main_v38 (ix2 p k) l = ix2 l k :=
  funext fun a => Fin.ext (by match a with | ⟨0, _⟩ => rfl | ⟨1, _⟩ => rfl)
theorem lidx44 (p : Fin 100000) (q : Fin 32) (k : Fin 16) : lidx_main_v44 (ix2 p q) k = ix2 p k :=
  funext fun a => Fin.ext (by match a with | ⟨0, _⟩ => rfl | ⟨1, _⟩ => rfl)
theorem ridx44 (p : Fin 100000) (q : Fin 32) (k : Fin 16) : ridx_main_v44 (ix2 p q) k = ix2 k q :=
  funext fun a => Fin.ext (by match a with | ⟨0, _⟩ => rfl | ⟨1, _⟩ => rfl)
theorem bias40 (p : Fin 100000) (k : Fin 16) : idx_main_v39 (idx_main_v40 (ix2 p k)) = ix1 k :=
  funext fun a => Fin.ext (by match a with | ⟨0, _⟩ => rfl)
theorem bias46 (p : Fin 100000) (q : Fin 32) : idx_main_v45 (idx_main_v46 (ix2 p q)) = ix1 q :=
  funext fun a => Fin.ext (by match a with | ⟨0, _⟩ => rfl)

/-- THE SECOND CONVOLUTION: the reference's result `%47` is `conv2` of the first convolution's result and the second
    aggregation. -/
theorem conv2_eq (x0 : (⟨S100000x32, .f32⟩ : BufTy).Contents (Elt Ideal)) (x1 : (⟨S2x2500000, .i32⟩ : BufTy).Contents (Elt Ideal))
    (x2 : (⟨S32x16, .f32⟩ : BufTy).Contents (Elt Ideal)) (x3 : (⟨S16, .f32⟩ : BufTy).Contents (Elt Ideal))
    (x4 : (⟨S16x32, .f32⟩ : BufTy).Contents (Elt Ideal)) (x5 : (⟨S32, .f32⟩ : BufTy).Contents (Elt Ideal))
    (x6 : (⟨S32x16, .f32⟩ : BufTy).Contents (Elt Ideal)) (x7 : (⟨S16, .f32⟩ : BufTy).Contents (Elt Ideal))
    (x8 : (⟨S16x32, .f32⟩ : BufTy).Contents (Elt Ideal)) (x9 : (⟨S32, .f32⟩ : BufTy).Contents (Elt Ideal)) :
    val_main_v47 (F := Ideal) x0 x1 x2 x3 x4 x5 x6 x7 x8 x9
      = Cert.Gin.conv2 (val_main_v26 (F := Ideal) x0 x1 x2 x3 x4 x5) (val_main_v36 (F := Ideal) x0 x1 x2 x3 x4 x5) x6
          (fun k => x7 (ix1 k)) x8 (fun r => x9 (ix1 r)) := by
  funext i
  obtain ⟨p, q, rfl⟩ : ∃ (p : Fin 100000) (q : Fin 32), i = ix2 p q := ⟨i 0, i 1, eq_ix2 i⟩
  rw [val_main_v47_apply, val_main_v44_apply, val_main_v46_apply, val_main_v45_apply, bias46]
  unfold Cert.Gin.conv2 Cert.Gin.mlpRow Cert.Gin.hidden
  refine congrArg (fun s => s + x9 (ix1 q)) (Finset.sum_congr rfl fun k _ => ?_)
  rw [lidx44, ridx44, val_main_v43_apply, val_main_v41_apply, val_main_v38_apply, val_main_v40_apply, val_main_v39_apply,
    bias40, val_main_v42_apply, val_main_cst_6_apply]
  refine congrArg (fun s => max (s + x7 (ix1 k)) (Ideal.ofBits .f32 0x00000000#32) * x8 (ix2 k q)) (Finset.sum_congr rfl fun l _ => ?_)
  rw [lidx38, ridx38, val_main_v37_apply]
  rfl

end Cert.ReferenceIdeal.Stages

end
-- ==== Proof.Bridge.lean ====
/-
  The reference's result is the kernel program's result term.

  Both programs aggregate with the same host operations — the same gather of rows at the edges' sources, the same
  scatter-add at their destinations —, so the two aggregations are one function of a feature array and the edge
  array, and the reference's second aggregation is that function of its first convolution's result.  With the two
  convolutions read as `conv1` and `conv2` on each side, the reference's result at the kernel's arguments is the
  kernel program's `result`, term for term.
-/
import proofs.«158033_j37426345017678_1_alg».proof.Proof.KValue
import proofs.«158033_j37426345017678_1_alg».proof.Proof.RefStages

set_option maxRecDepth 16384

noncomputable section

namespace Cert.Bridge

open Idealize.ShloMosaic Idealize.ShloMosaic.TcCoe Idealize.ShloMosaic.ValueIdx Idealize.SL.Sem
open Cert.ReferenceIdeal.Read

/-- The reference's first aggregation is the kernel program's, of the same features and edges. -/
theorem agg_first (x : (⟨Cert.ReferenceIdeal.S100000x32, .f32⟩ : BufTy).Contents (Elt Ideal))
    (E : (⟨Cert.ReferenceIdeal.S2x2500000, .i32⟩ : BufTy).Contents (Elt Ideal)) :
    val_main_v13 (F := Ideal) x E = Cert.KernelIdeal.Host.agg x E := rfl

/-- The reference's second aggregation is the kernel program's, of the first convolution's result and the same edges. -/
theorem agg_second (x0 : (⟨Cert.ReferenceIdeal.S100000x32, .f32⟩ : BufTy).Contents (Elt Ideal))
    (x1 : (⟨Cert.ReferenceIdeal.S2x2500000, .i32⟩ : BufTy).Contents (Elt Ideal))
    (x2 : (⟨Cert.ReferenceIdeal.S32x16, .f32⟩ : BufTy).Contents (Elt Ideal)) (x3 : (⟨Cert.ReferenceIdeal.S16, .f32⟩ : BufTy).Contents (Elt Ideal))
    (x4 : (⟨Cert.ReferenceIdeal.S16x32, .f32⟩ : BufTy).Contents (Elt Ideal)) (x5 : (⟨Cert.ReferenceIdeal.S32, .f32⟩ : BufTy).Contents (Elt Ideal)) :
    val_main_v36 (F := Ideal) x0 x1 x2 x3 x4 x5 = Cert.KernelIdeal.Host.agg (val_main_v26 (F := Ideal) x0 x1 x2 x3 x4 x5) x1 := rfl

open Cert.KernelIdeal in
/-- THE TWO RESULTS ARE ONE TERM: the reference's result stage at the kernel program's argument arrays is its `result`. -/
theorem result_eq (m : (ℓ : Loc nD τ sig) → Buf (Elt Ideal) ℓ) (c : Dev nD) :
    val_main_v47 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9))
    = Cert.KernelIdeal.Whole.result m c := by
  rw [Cert.ReferenceIdeal.Stages.conv2_eq, agg_second, Cert.ReferenceIdeal.Stages.conv1_eq, agg_first]
  rfl

end Cert.Bridge

end
-- ==== Proof.lean ====
/-
  A two-layer graph-isomorphism network against its plain reference, over the extended reals.

  Each convolution adds to every node's features the sum of its neighbours' features (a gather at the edges' sources
  and a scatter-add at their destinations, done by the same host operations in both programs) and passes each row
  through a small perceptron: a linear layer into sixteen hidden units, a cut-off at zero, a linear layer back to
  thirty-two features; between the two convolutions the features are cut off at zero once more.  The kernel program
  runs each perceptron in a kernel region over twenty blocks of 5000 rows, its matrix products taken in a narrower
  float format into zero accumulators; on the extended reals a change of format is the identity and such a product
  is the plain sum the reference's `dot_general` is, so row by row both programs compute the same function.

  The three frames are the generated runs.  The idealization rewrote nothing, so `preserves` is `True`.  For the
  value claim the kernel program's run is taken again with its result array named at the last boundary's contents
  (Proof/KRun.lean), those contents are read as `Whole.result` of the launch memory (each region's blocks tiling one
  array: Proof/Region0.lean, Proof/Region1.lean; the host stretches: Proof/KHost.lean; together: Proof/KValue.lean),
  and the reference's generated run ends at the same term (Proof/RefStages.lean, Proof/Bridge.lean).
-/
import proofs.«158033_j37426345017678_1_alg».proof.Defs
import proofs.«158033_j37426345017678_1_alg».proof.Proof.Gen.Kernel
import proofs.«158033_j37426345017678_1_alg».proof.Proof.Gen.Kernel.Skeleton
import proofs.«158033_j37426345017678_1_alg».proof.Proof.Gen.Kernel.Launch
import proofs.«158033_j37426345017678_1_alg».proof.Proof.Gen.Kernel.Points
import proofs.«158033_j37426345017678_1_alg».proof.Proof.Gen.Kernel.Frame
import proofs.«158033_j37426345017678_1_alg».proof.Proof.Gen.KernelIdeal
import proofs.«158033_j37426345017678_1_alg».proof.Proof.Gen.KernelIdeal.Skeleton
import proofs.«158033_j37426345017678_1_alg».proof.Proof.Gen.KernelIdeal.Launch
import proofs.«158033_j37426345017678_1_alg».proof.Proof.Gen.KernelIdeal.Points
import proofs.«158033_j37426345017678_1_alg».proof.Proof.Gen.KernelIdeal.Frame
import proofs.«158033_j37426345017678_1_alg».proof.Proof.Gen.ReferenceIdeal
import proofs.«158033_j37426345017678_1_alg».proof.Proof.Gen.ReferenceIdeal.Run
import proofs.«158033_j37426345017678_1_alg».proof.Proof.Gen.ReferenceIdeal.Read
import proofs.«158033_j37426345017678_1_alg».proof.Proof.Gen.Pre_finite_inputs
import proofs.«158033_j37426345017678_1_alg».proof.Proof.KRun
import proofs.«158033_j37426345017678_1_alg».proof.Proof.KValue
import proofs.«158033_j37426345017678_1_alg».proof.Proof.RefStages
import proofs.«158033_j37426345017678_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched: the generated frame. -/
theorem frame_k : Cert.frame_Kernel := fun m ρ _ => Cert.Kernel.Gen.frame m ρ
/-- So does the idealized kernel program. -/
theorem frame_ki : Cert.frame_KernelIdeal := fun m ρ _ => Cert.KernelIdeal.Gen.frame m ρ
/-- The reference runs and leaves its arguments as launched: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at `Whole.result` of the kernel
    program's launch memory: the kernel program by its named run and `Whole.value`, the reference by its generated run,
    its result stage rewritten to the kernel program's arguments and then `Bridge.result_eq`. -/
theorem algebraic : Cert.algebraic_KernelIdeal_ReferenceIdeal := by
  intro m ρ m' ρ' _ hagree
  refine ⟨fun c => Cert.KernelIdeal.Whole.result m c, ?_, ?_⟩
  · exact (θ_run Cert.KernelIdeal.defs _ _).mono
      (fun r h c => ⟨(h c).1.trans (Cert.KernelIdeal.Whole.value m ρ c), (h c).2⟩) (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v47_eq, h0, h1, h2, h3, h4, h5, h6, h7, h8, h9]
    exact Cert.Bridge.result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
